-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S5000x64 : Shape := ⟨2, ![5000, 64]⟩
abbrev S1700000x64 : Shape := ⟨2, ![1700000, 64]⟩

abbrev nBuf : Space → Nat
  | .hbm => 106
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .f32⟩
  | .hbm, ⟨49, _⟩ => ⟨S64, .f32⟩
  | .hbm, ⟨50, _⟩ => ⟨S1x64, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x64, .f32⟩
  | .hbm, ⟨97, _⟩ => ⟨S1700000x1, .f32⟩
  | .hbm, ⟨98, _⟩ => ⟨S1700000x64, .f32⟩
  | .hbm, ⟨99, _⟩ => ⟨S1700000x64, .f32⟩
  | .hbm, ⟨100, _⟩ => ⟨S_, .f32⟩
  | .hbm, ⟨101, _⟩ => ⟨S100000x64, .f32⟩
  | .hbm, ⟨102, _⟩ => ⟨S1700000x1, .i32⟩
  | .hbm, ⟨103, _⟩ => ⟨S100000x64, .f32⟩
  | .hbm, ⟨104, _⟩ => ⟨S1x64, .f32⟩
  | .hbm, ⟨105, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S1x64, .f32⟩
  | .local _ .vmem, ⟨3, _⟩ => ⟨S64x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S64x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S64 : S_.BroadcastsInDim S64 (![] : Fin 0 → Fin S64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x64, .f32⟩
  | .hbm, ⟨104, _⟩ => ⟨S1700000x1, .f32⟩
  | .hbm, ⟨105, _⟩ => ⟨S1700000x64, .f32⟩
  | .hbm, ⟨106, _⟩ => ⟨S1700000x64, .f32⟩
  | .hbm, ⟨107, _⟩ => ⟨S_, .f32⟩
  | .hbm, ⟨108, _⟩ => ⟨S100000x64, .f32⟩
  | .hbm, ⟨109, _⟩ => ⟨S1700000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Graph.lean ====
/-
  The graph side of the network, as functions of the edge list.

  Every layer of the network aggregates its [100000, 64] activation over the same graph. With the self loops appended to
  the edge list (`srcIdx`, `dstIdx`: the 1,600,000 given edges, then node n to node n for every n), each edge carries
  the weight dinv[src] · dinv[dst] (`norm`), where `dinv` is the reciprocal square root of a node's in-degree `deg` and 0
  at a node of degree 0; the aggregate of X (`agg`) scatter-adds, into row dst of a zero array, row src of X times the
  edge's weight. A negative index is wrapped by the node count before each gather (`wrapIdx`). Both programs compute
  these with the same host operations, so they are named here once, as terms of those operations, and never opened:
  the two programs' results are compared as the same function `agg` of equal arguments. Stated for any float family.
-/
import proofs.«182082_j80616536146118_1_alg».proof.Proof.Gen.KernelIdeal

noncomputable section

namespace Cert.KernelIdeal.Graph

open Cert.KernelIdeal Cert.KernelIdeal.Facts₀ Cert.KernelIdeal.Facts Idealize.ShloMosaic

variable {F : FTy → Type} [FloatOps F]

/-- The edges' sources: row 0 of the edge list, then the self loops 0, 1, …, 99999. -/
def srcIdx (me : (⟨S2x1600000, .i32⟩ : BufTy).Contents (Elt F)) : (⟨S1700000, .i32⟩ : BufTy).Contents (Elt F) :=
  concatenate S1700000 0 [⟨S1600000, shapeCast S1600000 (extractStridedSlice S1x1600000 ![0, 0] me slices_S2x1600000_S1x1600000_0_0) shapeCasts_S1x1600000_S1600000⟩,
    ⟨S100000, iotaInDim S100000 32 0⟩] concatenates_S1600000_S100000_S1700000_d0

/-- The edges' destinations: row 1 of the edge list, then the self loops. -/
def dstIdx (me : (⟨S2x1600000, .i32⟩ : BufTy).Contents (Elt F)) : (⟨S1700000, .i32⟩ : BufTy).Contents (Elt F) :=
  concatenate S1700000 0 [⟨S1600000, shapeCast S1600000 (extractStridedSlice S1x1600000 ![1, 0] me slices_S2x1600000_S1x1600000_1_0) shapeCasts_S1x1600000_S1600000⟩,
    ⟨S100000, iotaInDim S100000 32 0⟩] concatenates_S1600000_S100000_S1700000_d0

/-- A negative index counted from the end: 100000 is added to it. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- An index vector as the one-column array the gathers and scatters take. -/
def col (v : (⟨S1700000, .i32⟩ : BufTy).Contents (Elt F)) : (⟨S1700000x1, .i32⟩ : BufTy).Contents (Elt F) :=
  broadcastInDim S1700000x1 ![0] bcast_S1700000_S1700000x1_0 v

/-- The in-degrees: a one for every edge, scatter-added at its destination. -/
def deg (me : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32)) (col (dstIdx me))
    (broadcastInDim S1700000 ![] bcast_S_S1700000 (constant S_ .f32 0x3F800000#32))

/-- deg^(-1/2) where the degree is positive, 0 elsewhere. -/
def dinv (me : (⟨S2x1600000, .i32⟩ : BufTy).Contents (Elt F)) : (⟨S100000, .f32⟩ : BufTy).Contents (Elt F) :=
  select (cmpf (F := F) .ogt (deg me) (broadcastInDim S100000 ![] bcast_S_S100000 (constant S_ .f32 0x00000000#32)))
    (Host.rsqrt (deg me)) (broadcastInDim S100000 ![] bcast_S_S100000 (id (constant S_ .f32 0x00000000#32)))

/-- The edges' weights dinv[src] · dinv[dst]. -/
def norm (me : (⟨S2x1600000, .i32⟩ : BufTy).Contents (Elt F)) : (⟨S1700000, .f32⟩ : BufTy).Contents (Elt F) :=
  mulf (Host.gather gather_S100000_S1700000x1_S1700000_n_0_n_n_0_1_1 (dinv me) (col (wrapIdx (srcIdx me))))
    (Host.gather gather_S100000_S1700000x1_S1700000_n_0_n_n_0_1_1 (dinv me) (col (wrapIdx (dstIdx me))))

/-- The aggregate of X over the graph: row src of X times the edge's weight, scatter-added into row dst of zeros. -/
def agg (me : (⟨S2x1600000, .i32⟩ : BufTy).Contents (Elt F)) (X : (⟨S100000x64, .f32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32)) (col (dstIdx me))
    (mulf (Host.gather gather_S100000x64_S1700000x1_S1700000x64_1_0_n_n_0_1_164 X (col (wrapIdx (srcIdx me))))
      (broadcastInDim S1700000x64 ![0, 1] bcast_S1700000x1_S1700000x64_0_1
        (broadcastInDim S1700000x1 ![0] bcast_S1700000_S1700000x1_0 (norm me))))

/-- A bias vector as the one-row array the kernels take. -/
def row (b : (⟨S64, .f32⟩ : BufTy).Contents (Elt F)) : (⟨S1x64, .f32⟩ : BufTy).Contents (Elt F) :=
  shapeCast S1x64 b shapeCasts_S64_S1x64

/-- The first kernel's bias: a zero vector as a one-row array. -/
def zeroRow : (⟨S1x64, .f32⟩ : BufTy).Contents (Elt F) :=
  row (broadcastInDim S64 ![] bcast_S_S64 (constant S_ .f32 0x00000000#32))

end Cert.KernelIdeal.Graph

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.BiasFirst.lean ====
/-
  A dense layer whose bias is added BEFORE the product, read row by row on the extended reals.

  The fused kernels of this network compute, on a block of rows, `act (x + b) · W`: the bias row b is added to every row of
  the input, an activation `act` (the identity, or the rectifier `max · 0`) is applied entry by entry, and the result is
  multiplied by a stored K×N matrix. Entry (p, q) of the result depends on row p of the input alone:

      layer act X b W (p, q) = ∑ k, act (X (p, k) + b (0, k)) · W (k, q).

  So the layer applied to a block of rows of a matrix is that block of rows of the layer applied to the whole matrix
  (`layer_block`). This file states the row function, the vector unit's and the host's spellings of it at an index, the
  one law that joins the first layer's two sides (adding a zero row changes nothing: x + 0 = x on every extended real),
  and the final bias addition. Generic in all extents.
-/
import Idealize.ShloMosaic.PureOps.Ideal.Laws
import Idealize.ShloMosaic.Lib.ValueIdx
import Idealize.ShloMosaic.Lib.ValueLayout
import Idealize.ShloMosaic.Lib.Pipeline.Value
import proofs.«182082_j80616536146118_1_alg».proof.Proof.LibPlainDot
import proofs.«182082_j80616536146118_1_alg».proof.Proof.LibRowBias

noncomputable section

open scoped BigOperators

namespace Cert.BiasFirst

open Idealize.ShloMosaic Idealize.ShloMosaic.ValueIdx

variable {M M' K N : Nat}

/-! ## The row functions -/

/-- The rectifier on one extended real. -/
def relu (x : EReal) : EReal := max x 0

/-- `act (X + b) · W`, entry by entry. -/
def layer (act : EReal → EReal) (X : (⟨2, ![M, K]⟩ : Shape).Idx → EReal) (b : (⟨2, ![1, K]⟩ : Shape).Idx → EReal)
    (W : (⟨2, ![K, N]⟩ : Shape).Idx → EReal) : (⟨2, ![M, N]⟩ : Shape).Idx → EReal :=
  fun i => ∑ k : Fin K, act (X (ix2 (i 0) k) + b (ix2 (0 : Fin 1) k)) * W (ix2 k (i 1))

theorem layer_apply (act : EReal → EReal) (X : (⟨2, ![M, K]⟩ : Shape).Idx → EReal) (b : (⟨2, ![1, K]⟩ : Shape).Idx → EReal)
    (W : (⟨2, ![K, N]⟩ : Shape).Idx → EReal) (p : Fin M) (q : Fin N) :
    layer act X b W (ix2 p q) = ∑ k : Fin K, act (X (ix2 p k) + b (ix2 (0 : Fin 1) k)) * W (ix2 k q) := rfl

/-- The bias row added to every row. -/
def biased (X : (⟨2, ![M, N]⟩ : Shape).Idx → EReal) (b : (⟨2, ![1, N]⟩ : Shape).Idx → EReal) :
    (⟨2, ![M, N]⟩ : Shape).Idx → EReal :=
  fun i => X i + b (ix2 (0 : Fin 1) (i 1))

theorem biased_apply (X : (⟨2, ![M, N]⟩ : Shape).Idx → EReal) (b : (⟨2, ![1, N]⟩ : Shape).Idx → EReal) (p : Fin M) (q : Fin N) :
    biased X b (ix2 p q) = X (ix2 p q) + b (ix2 (0 : Fin 1) q) := rfl

/-! ## A block of rows -/

/-- The layer of a block of rows is that block of rows of the layer: if row p' of the block x is row r p' of X, and the
    block's copies of the bias row and of the matrix are the bias row and the matrix, then at every index j of the block
    the layer of the block is the layer of X at the index e j that j has in the whole result. -/
theorem layer_block (act : EReal → EReal) (X : (⟨2, ![M, K]⟩ : Shape).Idx → EReal) (b b' : (⟨2, ![1, K]⟩ : Shape).Idx → EReal)
    (W W' : (⟨2, ![K, N]⟩ : Shape).Idx → EReal) (x : (⟨2, ![M', K]⟩ : Shape).Idx → EReal)
    (e : (⟨2, ![M', N]⟩ : Shape).Idx → (⟨2, ![M, N]⟩ : Shape).Idx) (r : Fin M' → Fin M)
    (he : ∀ p' q, e (ix2 p' q) = ix2 (r p') q)
    (hx : ∀ p' k, x (ix2 p' k) = X (ix2 (r p') k)) (hb : ∀ k, b' (ix2 (0 : Fin 1) k) = b (ix2 (0 : Fin 1) k))
    (hW : ∀ k q, W' (ix2 k q) = W (ix2 k q)) (j : (⟨2, ![M', N]⟩ : Shape).Idx) :
    layer act x b' W' j = layer act X b W (e j) := by
  obtain ⟨p', q, rfl⟩ : ∃ (p' : Fin M') (q : Fin N), j = ix2 p' q := ⟨j 0, j 1, eq_ix2 j⟩
  rw [he, layer_apply, layer_apply]
  exact Finset.sum_congr rfl fun k _ => by rw [hx, hb, hW]

/-- The same for the bias addition. -/
theorem biased_block (X : (⟨2, ![M, N]⟩ : Shape).Idx → EReal) (b b' : (⟨2, ![1, N]⟩ : Shape).Idx → EReal)
    (x : (⟨2, ![M', N]⟩ : Shape).Idx → EReal)
    (e : (⟨2, ![M', N]⟩ : Shape).Idx → (⟨2, ![M, N]⟩ : Shape).Idx) (r : Fin M' → Fin M)
    (he : ∀ p' q, e (ix2 p' q) = ix2 (r p') q)
    (hx : ∀ p' q, x (ix2 p' q) = X (ix2 (r p') q)) (hb : ∀ q, b' (ix2 (0 : Fin 1) q) = b (ix2 (0 : Fin 1) q))
    (j : (⟨2, ![M', N]⟩ : Shape).Idx) :
    biased x b' j = biased X b (e j) := by
  obtain ⟨p', q, rfl⟩ : ∃ (p' : Fin M') (q : Fin N), j = ix2 p' q := ⟨j 0, j 1, eq_ix2 j⟩
  rw [he, biased_apply, biased_apply, hx, hb]

/-! ## The vector unit's spelling -/

/-- The bias row broadcast down the rows and added, at (p, k). -/
theorem unit_shift_apply (x : FVec Ideal ⟨2, ![M, K]⟩ .f32) (b : FVec Ideal ⟨2, ![1, K]⟩ .f32)
    (hs : (⟨2, ![1, K]⟩ : Shape).ShapeCasts ⟨2, ![1, K]⟩) (hb : (⟨2, ![1, K]⟩ : Shape).Broadcasts ⟨2, ![M, K]⟩) (p : Fin M) (k : Fin K) :
    addf x (broadcastTo ⟨2, ![M, K]⟩ (shapeCast ⟨2, ![1, K]⟩ b hs) hb) (ix2 p k) = x (ix2 p k) + b (ix2 (0 : Fin 1) k) := by
  rw [addf_apply, Cert.RowBias.rows_apply, shapeCast_self]

/-- The first fused kernel's stored value: the bias row added, the product into a zero accumulator; the changes of
    float format are the identity on the extended reals. -/
theorem unit_layer_id (x : FVec Ideal ⟨2, ![M, K]⟩ .f32) (b : FVec Ideal ⟨2, ![1, K]⟩ .f32) (W : FVec Ideal ⟨2, ![K, N]⟩ .f32)
    (hs : (⟨2, ![1, K]⟩ : Shape).ShapeCasts ⟨2, ![1, K]⟩) (hb : (⟨2, ![1, K]⟩ : Shape).Broadcasts ⟨2, ![M, K]⟩)
    (h1 h2 : FTy.bf16.bits < FTy.f32.bits) (prec : Option ContractPrecision) :
    matmul (DotDims.plain M K N) prec
        (truncf .bf16 (addf x (broadcastTo ⟨2, ![M, K]⟩ (shapeCast ⟨2, ![1, K]⟩ b hs) hb)) h1)
        (truncf .bf16 W h2) (constant ⟨2, ![M, N]⟩ .f32 0x00000000#32)
      = layer id x b W := by
  funext j
  obtain ⟨p, q, rfl⟩ : ∃ (p : Fin M) (q : Fin N), j = ix2 p q := ⟨j 0, j 1, eq_ix2 j⟩
  rw [layer_apply]
  refine (Cert.PlainDot.matmul_zero_apply prec _ _ p q).trans ?_
  refine Finset.sum_congr rfl fun k _ => ?_
  rw [truncf_apply, truncf_apply, unit_shift_apply]
  rfl

/-- The second and third fused kernels' stored value: the bias row added, the maximum with a splat zero, the
    product into a zero accumulator. -/
theorem unit_layer_relu (x : FVec Ideal ⟨2, ![M, K]⟩ .f32) (b : FVec Ideal ⟨2, ![1, K]⟩ .f32) (W : FVec Ideal ⟨2, ![K, N]⟩ .f32)
    (hx : (⟨2, ![M, K]⟩ : Shape).ShapeCasts ⟨2, ![M, K]⟩)
    (hs : (⟨2, ![1, K]⟩ : Shape).ShapeCasts ⟨2, ![1, K]⟩) (hb : (⟨2, ![1, K]⟩ : Shape).Broadcasts ⟨2, ![M, K]⟩)
    (h1 h2 : FTy.bf16.bits < FTy.f32.bits) (prec : Option ContractPrecision) :
    matmul (DotDims.plain M K N) prec
        (truncf .bf16 (maximumf (addf (shapeCast ⟨2, ![M, K]⟩ x hx) (broadcastTo ⟨2, ![M, K]⟩ (shapeCast ⟨2, ![1, K]⟩ b hs) hb))
          (broadcast ⟨2, ![M, K]⟩ (Scalar.ofBits .f32 0x00000000#32))) h1)
        (truncf .bf16 W h2) (constant ⟨2, ![M, N]⟩ .f32 0x00000000#32)
      = layer relu x b W := by
  funext j
  obtain ⟨p, q, rfl⟩ : ∃ (p : Fin M) (q : Fin N), j = ix2 p q := ⟨j 0, j 1, eq_ix2 j⟩
  rw [layer_apply]
  refine (Cert.PlainDot.matmul_zero_apply prec _ _ p q).trans ?_
  refine Finset.sum_congr rfl fun k _ => ?_
  rw [truncf_apply, truncf_apply, maximumf_apply, broadcast_apply, shapeCast_self, unit_shift_apply]
  show max _ (Ideal.ofBits .f32 0x00000000#32) * _ = _
  rw [Ideal.ofBits_zero_f32]
  rfl

/-- The last kernel's stored value: the bias row added to every row. -/
theorem unit_biased (x : FVec Ideal ⟨2, ![M, N]⟩ .f32) (b : FVec Ideal ⟨2, ![1, N]⟩ .f32)
    (hx : (⟨2, ![M, N]⟩ : Shape).ShapeCasts ⟨2, ![M, N]⟩)
    (hs : (⟨2, ![1, N]⟩ : Shape).ShapeCasts ⟨2, ![1, N]⟩) (hb : (⟨2, ![1, N]⟩ : Shape).Broadcasts ⟨2, ![M, N]⟩) :
    addf (shapeCast ⟨2, ![M, N]⟩ x hx) (broadcastTo ⟨2, ![M, N]⟩ (shapeCast ⟨2, ![1, N]⟩ b hs) hb) = biased x b := by
  funext j
  obtain ⟨p, q, rfl⟩ : ∃ (p : Fin M) (q : Fin N), j = ix2 p q := ⟨j 0, j 1, eq_ix2 j⟩
  rw [biased_apply, shapeCast_self, unit_shift_apply]

/-! ## The host's spelling -/

/-- The host's first layer, a plain `dot_general`, is the layer with the identity activation over a ZERO bias row:
    x + 0 = x on every extended real, the infinities included. -/
theorem host_layer_id (X : FVec Ideal ⟨2, ![M, K]⟩ .f32) (W : FVec Ideal ⟨2, ![K, N]⟩ .f32) (z : FVec Ideal ⟨2, ![1, K]⟩ .f32)
    (hz : ∀ k, z (ix2 (0 : Fin 1) k) = 0) (prec : Option ContractPrecision) :
    Host.dotGeneral (DotDims.plain M K N) prec X W = layer id X z W := by
  funext j
  obtain ⟨p, q, rfl⟩ : ∃ (p : Fin M) (q : Fin N), j = ix2 p q := ⟨j 0, j 1, eq_ix2 j⟩
  rw [layer_apply]
  refine (Cert.PlainDot.dotGeneral_apply prec .single X W p q).trans ?_
  refine Finset.sum_congr rfl fun k _ => ?_
  rw [hz, add_zero]
  rfl

/-- The host's later layers: the bias vector broadcast to a row and down the rows and added, the maximum with a
    broadcast zero constant, `dot_general`; the kernel's bias row is the same vector reshaped to one row. -/
theorem host_layer_relu (A : FVec Ideal ⟨2, ![M, K]⟩ .f32) (bv : FVec Ideal ⟨1, ![K]⟩ .f32) (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (hr : (⟨1, ![K]⟩ : Shape).ShapeCasts ⟨2, ![1, K]⟩) (prec : Option ContractPrecision) :
    Host.dotGeneral (DotDims.plain M K N) prec
        (maximumf (addf A (broadcastInDim ⟨2, ![M, K]⟩ ![0, 1] h2 (broadcastInDim ⟨2, ![1, K]⟩ ![1] h1 bv)))
          (broadcastInDim ⟨2, ![M, K]⟩ ![] h0 (constant ⟨0, ![]⟩ .f32 0x00000000#32))) W
      = layer relu A (shapeCast ⟨2, ![1, K]⟩ bv hr) W := by
  funext j
  obtain ⟨p, q, rfl⟩ : ∃ (p : Fin M) (q : Fin N), j = ix2 p q := ⟨j 0, j 1, eq_ix2 j⟩
  rw [layer_apply]
  refine (Cert.PlainDot.dotGeneral_apply prec .single _ W p q).trans ?_
  refine Finset.sum_congr rfl fun k _ => ?_
  rw [maximumf_apply, addf_apply, Cert.RowBias.hostRows_apply, Cert.RowBias.splat_apply, Cert.RowBias.ofVec_apply]
  show max _ (Ideal.ofBits .f32 0x00000000#32) * _ = _
  rw [Ideal.ofBits_zero_f32]
  rfl

/-- The host's final bias addition is the kernel's, the bias row the vector reshaped. -/
theorem host_biased (A : FVec Ideal ⟨2, ![M, N]⟩ .f32) (bv : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hr : (⟨1, ![N]⟩ : Shape).ShapeCasts ⟨2, ![1, N]⟩) :
    addf A (broadcastInDim ⟨2, ![M, N]⟩ ![0, 1] h2 (broadcastInDim ⟨2, ![1, N]⟩ ![1] h1 bv))
      = biased A (shapeCast ⟨2, ![1, N]⟩ bv hr) := by
  funext j
  obtain ⟨p, q, rfl⟩ : ∃ (p : Fin M) (q : Fin N), j = ix2 p q := ⟨j 0, j 1, eq_ix2 j⟩
  rw [biased_apply, addf_apply, Cert.RowBias.hostRows_apply, Cert.RowBias.ofVec_apply]

/-- A zero vector reshaped to one row is a zero row. -/
theorem zero_row (h0 : (⟨0, ![]⟩ : Shape).BroadcastsInDim ⟨1, ![K]⟩ ![]) (hr : (⟨1, ![K]⟩ : Shape).ShapeCasts ⟨2, ![1, K]⟩) (k : Fin K) :
    shapeCast ⟨2, ![1, K]⟩ (broadcastInDim ⟨1, ![K]⟩ ![] h0 (constant (F := Ideal) ⟨0, ![]⟩ .f32 0x00000000#32)) hr (ix2 (0 : Fin 1) k) = 0 := by
  rw [Cert.RowBias.ofVec_apply, Cert.RowBias.splat_apply]
  show Ideal.ofBits .f32 0x00000000#32 = 0
  rw [Ideal.ofBits_zero_f32]

end Cert.BiasFirst

end
-- ==== Proof.Region0.lean ====
/-
  Region 0 of the kernel program as ONE function of the arrays it finds.

  The region streams the [100000, 64] activation through the kernel in 20 blocks of 5000 rows; grid point t reads rows
  5000·t … 5000·t + 4999 of the input, the whole bias row and the whole 64×64 matrix, and writes rows 5000·t … of the
  output. The body's stored value is `layer id` of the loaded blocks (the fused layer, bias first), which acts on each row
  independently; so what point t writes back is block t of `layer id` applied to the whole input array, the 20 blocks
  tile the output, and the output array ends holding `layer id` of the three input arrays as the region found them.
-/
import proofs.«182082_j80616536146118_1_alg».proof.Proof.Gen.KernelIdeal.Frame
import proofs.«182082_j80616536146118_1_alg».proof.Proof.BiasFirst
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.BiasFirst

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the input's and the output's blocks move down the rows with the
    point, the bias row and the matrix stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's stored value is the fused layer of its loaded blocks. -/
theorem pay_eq (x0 : Vec Ideal S5000x64 .f32) (x1 : Vec Ideal S1x64 .f32) (x2 : Vec Ideal S64x64 .f32) :
    k0_pay1 x0 x1 x2 = layer id x0 x1 x2 := by
  unfold k0_pay1
  exact unit_layer_id x0 x1 x2 _ _ _ _ _

/-- The whole-array function: the fused layer of the input array, the bias row and the matrix as the region finds them. -/
abbrev G (c : Dev nD) : S100000x64.Idx → EReal :=
  layer id (V c main_arg0 : S100000x64.Idx → EReal) (V c main_v31 : S1x64.Idx → EReal) (V c main_arg2 : S64x64.Idx → EReal)

/-- Row p' of point t's blocks is row 5000·t + p' of the arrays. -/
theorem row_lt (t : Fin cfg0.N) (p' : Fin 5000) : t.val * 5000 + p'.val < 100000 := by
  have ht := t.isLt
  have hN : cfg0.N = 20 := N_0
  have hp := p'.isLt
  omega

/-- WHAT POINT t WRITES BACK is block t of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x64) hz, View.ld_unit_zero (S := S1x64) hz, View.ld_unit_zero (S := S64x64) hz]
  rw [pay_eq]
  obtain ⟨e0, e1, e2, e3, e4, e5, e6, e7⟩ := idx_facts t
  funext j
  rw [View.read_apply]
  refine layer_block id (V c main_arg0 : S100000x64.Idx → EReal) (V c main_v31 : S1x64.Idx → EReal) (iblk0 V c 1 t)
    (V c main_arg2 : S64x64.Idx → EReal) (iblk0 V c 2 t) (iblk0 V c 0 t)
    (fun y => ((cfg0.win 3).blk t).view.emb y) (fun p' => ⟨t.val * 5000 + p'.val, row_lt t p'⟩) ?_ ?_ ?_ ?_ j
  · intro p' q
    funext a; apply Fin.ext
    match a with
    | ⟨0, _⟩ => show win0_3.index t (0 : Fin 2) * 5000 + 1 * p'.val = t.val * 5000 + p'.val; rw [e6]; omega
    | ⟨1, _⟩ => show win0_3.index t (1 : Fin 2) * 64 + 1 * q.val = q.val; rw [e7]; omega
  · intro p' k
    unfold iblk0
    rw [View.read_apply]
    show (V c main_arg0 : S100000x64.Idx → EReal) (((cfg0.win 0).blk t).view.emb (ix2 p' k)) = _
    refine congrArg _ (funext fun a => Fin.ext ?_)
    match a with
    | ⟨0, _⟩ => show win0_0.index t (0 : Fin 2) * 5000 + 1 * p'.val = t.val * 5000 + p'.val; rw [e0]; omega
    | ⟨1, _⟩ => show win0_0.index t (1 : Fin 2) * 64 + 1 * k.val = k.val; rw [e1]; omega
  · intro k
    unfold iblk0
    rw [View.read_apply]
    show (V c main_v31 : S1x64.Idx → EReal) (((cfg0.win 1).blk t).view.emb (ix2 (0 : Fin 1) k)) = _
    refine congrArg _ (funext fun a => Fin.ext ?_)
    match a with
    | ⟨0, _⟩ => show win0_1.index t (0 : Fin 2) * 1 + 1 * 0 = 0; rw [e2]
    | ⟨1, _⟩ => show win0_1.index t (1 : Fin 2) * 64 + 1 * k.val = k.val; rw [e3]; omega
  · intro k q
    unfold iblk0
    rw [View.read_apply]
    show (V c main_arg2 : S64x64.Idx → EReal) (((cfg0.win 2).blk t).view.emb (ix2 k q)) = _
    refine congrArg _ (funext fun a => Fin.ext ?_)
    match a with
    | ⟨0, _⟩ => show win0_2.index t (0 : Fin 2) * 64 + 1 * k.val = k.val; rw [e4]; omega
    | ⟨1, _⟩ => show win0_2.index t (1 : Fin 2) * 64 + 1 * q.val = q.val; rw [e5]; omega

/-- An index of the output array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v32).slice (win0_3.rect t)).set ↔ _
  rw [View.set_slice_whole, Rect.mem_set_unit]
  exact Iff.rfl

/-- The 20 blocks tile the output: row r lies in the block of point r / 5000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 64 ≤ (i 1).val ∧ (i 1).val < win0_3.index t (1 : Fin 2) * 64 + 64; rw [e7]; omega

/-- THE OUTPUT ARRAY after the region: the fused layer of the arrays the region found. -/
theorem final (c : Dev nD) : (dat0 V c).arrAt 3 cfg0.N = G V c :=
  (dat0 V c).arrAt_eq_of_cover 3 (G V c) (fun t _ => flushed_eq V c t) (cover)

end Cert.KernelIdeal.Region0

end
-- ==== Proof.Region1.lean ====
/-
  Region 1 of the kernel program as ONE function of the arrays it finds.

  The region streams the [100000, 64] activation through the kernel in 20 blocks of 5000 rows; grid point t reads rows
  5000·t … 5000·t + 4999 of the input, the whole bias row and the whole 64×64 matrix, and writes rows 5000·t … of the
  output. The body's stored value is `layer relu` of the loaded blocks (the fused layer, bias first), which acts on each row
  independently; so what point t writes back is block t of `layer relu` applied to the whole input array, the 20 blocks
  tile the output, and the output array ends holding `layer relu` of the three input arrays as the region found them.
-/
import proofs.«182082_j80616536146118_1_alg».proof.Proof.Gen.KernelIdeal.Frame
import proofs.«182082_j80616536146118_1_alg».proof.Proof.BiasFirst
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.BiasFirst

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the input's and the output's blocks move down the rows with the
    point, the bias row and the matrix stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's stored value is the fused layer of its loaded blocks. -/
theorem pay_eq (x0 : Vec Ideal S5000x64 .f32) (x1 : Vec Ideal S1x64 .f32) (x2 : Vec Ideal S64x64 .f32) :
    k1_pay1 x0 x1 x2 = layer relu x0 x1 x2 := by
  unfold k1_pay1
  exact unit_layer_relu x0 x1 x2 _ _ _ _ _ _

/-- The whole-array function: the fused layer of the input array, the bias row and the matrix as the region finds them. -/
abbrev G (c : Dev nD) : S100000x64.Idx → EReal :=
  layer relu (V c main_v45 : S100000x64.Idx → EReal) (V c main_v46 : S1x64.Idx → EReal) (V c main_arg4 : S64x64.Idx → EReal)

/-- Row p' of point t's blocks is row 5000·t + p' of the arrays. -/
theorem row_lt (t : Fin cfg1.N) (p' : Fin 5000) : t.val * 5000 + p'.val < 100000 := by
  have ht := t.isLt
  have hN : cfg1.N = 20 := N_1
  have hp := p'.isLt
  omega

/-- WHAT POINT t WRITES BACK is block t of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  rw [pay_eq]
  obtain ⟨e0, e1, e2, e3, e4, e5, e6, e7⟩ := idx_facts t
  funext j
  rw [View.read_apply]
  refine layer_block relu (V c main_v45 : S100000x64.Idx → EReal) (V c main_v46 : S1x64.Idx → EReal) (iblk1 V c 1 t)
    (V c main_arg4 : S64x64.Idx → EReal) (iblk1 V c 2 t) (iblk1 V c 0 t)
    (fun y => ((cfg1.win 3).blk t).view.emb y) (fun p' => ⟨t.val * 5000 + p'.val, row_lt t p'⟩) ?_ ?_ ?_ ?_ j
  · intro p' q
    funext a; apply Fin.ext
    match a with
    | ⟨0, _⟩ => show win1_3.index t (0 : Fin 2) * 5000 + 1 * p'.val = t.val * 5000 + p'.val; rw [e6]; omega
    | ⟨1, _⟩ => show win1_3.index t (1 : Fin 2) * 64 + 1 * q.val = q.val; rw [e7]; omega
  · intro p' k
    unfold iblk1
    rw [View.read_apply]
    show (V c main_v45 : S100000x64.Idx → EReal) (((cfg1.win 0).blk t).view.emb (ix2 p' k)) = _
    refine congrArg _ (funext fun a => Fin.ext ?_)
    match a with
    | ⟨0, _⟩ => show win1_0.index t (0 : Fin 2) * 5000 + 1 * p'.val = t.val * 5000 + p'.val; rw [e0]; omega
    | ⟨1, _⟩ => show win1_0.index t (1 : Fin 2) * 64 + 1 * k.val = k.val; rw [e1]; omega
  · intro k
    unfold iblk1
    rw [View.read_apply]
    show (V c main_v46 : S1x64.Idx → EReal) (((cfg1.win 1).blk t).view.emb (ix2 (0 : Fin 1) k)) = _
    refine congrArg _ (funext fun a => Fin.ext ?_)
    match a with
    | ⟨0, _⟩ => show win1_1.index t (0 : Fin 2) * 1 + 1 * 0 = 0; rw [e2]
    | ⟨1, _⟩ => show win1_1.index t (1 : Fin 2) * 64 + 1 * k.val = k.val; rw [e3]; omega
  · intro k q
    unfold iblk1
    rw [View.read_apply]
    show (V c main_arg4 : S64x64.Idx → EReal) (((cfg1.win 2).blk t).view.emb (ix2 k q)) = _
    refine congrArg _ (funext fun a => Fin.ext ?_)
    match a with
    | ⟨0, _⟩ => show win1_2.index t (0 : Fin 2) * 64 + 1 * k.val = k.val; rw [e4]; omega
    | ⟨1, _⟩ => show win1_2.index t (1 : Fin 2) * 64 + 1 * q.val = q.val; rw [e5]; omega

/-- An index of the output array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- The 20 blocks tile the output: row r lies in the block of point r / 5000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3, e4, e5, e6, e7⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 64 ≤ (i 1).val ∧ (i 1).val < win1_3.index t (1 : Fin 2) * 64 + 64; rw [e7]; omega

/-- THE OUTPUT ARRAY after the region: the fused layer of the arrays the region found. -/
theorem final (c : Dev nD) : (dat1 V c).arrAt 3 cfg1.N = G V c :=
  (dat1 V c).arrAt_eq_of_cover 3 (G V c) (fun t _ => flushed_eq V c t) (cover)

end Cert.KernelIdeal.Region1

end
-- ==== Proof.Region2.lean ====
/-
  Region 2 of the kernel program as ONE function of the arrays it finds.

  The region streams the [100000, 64] activation through the kernel in 20 blocks of 5000 rows; grid point t reads rows
  5000·t … 5000·t + 4999 of the input, the whole bias row and the whole 64×64 matrix, and writes rows 5000·t … of the
  output. The body's stored value is `layer relu` of the loaded blocks (the fused layer, bias first), which acts on each row
  independently; so what point t writes back is block t of `layer relu` applied to the whole input array, the 20 blocks
  tile the output, and the output array ends holding `layer relu` of the three input arrays as the region found them.
-/
import proofs.«182082_j80616536146118_1_alg».proof.Proof.Gen.KernelIdeal.Frame
import proofs.«182082_j80616536146118_1_alg».proof.Proof.BiasFirst
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.BiasFirst

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the input's and the output's blocks move down the rows with the
    point, the bias row and the matrix stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's stored value is the fused layer of its loaded blocks. -/
theorem pay_eq (x0 : Vec Ideal S5000x64 .f32) (x1 : Vec Ideal S1x64 .f32) (x2 : Vec Ideal S64x64 .f32) :
    k2_pay1 x0 x1 x2 = layer relu x0 x1 x2 := by
  unfold k2_pay1
  exact unit_layer_relu x0 x1 x2 _ _ _ _ _ _

/-- The whole-array function: the fused layer of the input array, the bias row and the matrix as the region finds them. -/
abbrev G (c : Dev nD) : S100000x64.Idx → EReal :=
  layer relu (V c main_v60 : S100000x64.Idx → EReal) (V c main_v61 : S1x64.Idx → EReal) (V c main_arg6 : S64x64.Idx → EReal)

/-- Row p' of point t's blocks is row 5000·t + p' of the arrays. -/
theorem row_lt (t : Fin cfg2.N) (p' : Fin 5000) : t.val * 5000 + p'.val < 100000 := by
  have ht := t.isLt
  have hN : cfg2.N = 20 := N_2
  have hp := p'.isLt
  omega

/-- WHAT POINT t WRITES BACK is block t of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz, View.ld_unit_zero (S := S64x64) hz]
  rw [pay_eq]
  obtain ⟨e0, e1, e2, e3, e4, e5, e6, e7⟩ := idx_facts t
  funext j
  rw [View.read_apply]
  refine layer_block relu (V c main_v60 : S100000x64.Idx → EReal) (V c main_v61 : S1x64.Idx → EReal) (iblk2 V c 1 t)
    (V c main_arg6 : S64x64.Idx → EReal) (iblk2 V c 2 t) (iblk2 V c 0 t)
    (fun y => ((cfg2.win 3).blk t).view.emb y) (fun p' => ⟨t.val * 5000 + p'.val, row_lt t p'⟩) ?_ ?_ ?_ ?_ j
  · intro p' q
    funext a; apply Fin.ext
    match a with
    | ⟨0, _⟩ => show win2_3.index t (0 : Fin 2) * 5000 + 1 * p'.val = t.val * 5000 + p'.val; rw [e6]; omega
    | ⟨1, _⟩ => show win2_3.index t (1 : Fin 2) * 64 + 1 * q.val = q.val; rw [e7]; omega
  · intro p' k
    unfold iblk2
    rw [View.read_apply]
    show (V c main_v60 : S100000x64.Idx → EReal) (((cfg2.win 0).blk t).view.emb (ix2 p' k)) = _
    refine congrArg _ (funext fun a => Fin.ext ?_)
    match a with
    | ⟨0, _⟩ => show win2_0.index t (0 : Fin 2) * 5000 + 1 * p'.val = t.val * 5000 + p'.val; rw [e0]; omega
    | ⟨1, _⟩ => show win2_0.index t (1 : Fin 2) * 64 + 1 * k.val = k.val; rw [e1]; omega
  · intro k
    unfold iblk2
    rw [View.read_apply]
    show (V c main_v61 : S1x64.Idx → EReal) (((cfg2.win 1).blk t).view.emb (ix2 (0 : Fin 1) k)) = _
    refine congrArg _ (funext fun a => Fin.ext ?_)
    match a with
    | ⟨0, _⟩ => show win2_1.index t (0 : Fin 2) * 1 + 1 * 0 = 0; rw [e2]
    | ⟨1, _⟩ => show win2_1.index t (1 : Fin 2) * 64 + 1 * k.val = k.val; rw [e3]; omega
  · intro k q
    unfold iblk2
    rw [View.read_apply]
    show (V c main_arg6 : S64x64.Idx → EReal) (((cfg2.win 2).blk t).view.emb (ix2 k q)) = _
    refine congrArg _ (funext fun a => Fin.ext ?_)
    match a with
    | ⟨0, _⟩ => show win2_2.index t (0 : Fin 2) * 64 + 1 * k.val = k.val; rw [e4]; omega
    | ⟨1, _⟩ => show win2_2.index t (1 : Fin 2) * 64 + 1 * q.val = q.val; rw [e5]; omega

/-- An index of the output array is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v62).slice (win2_3.rect t)).set ↔ _
  rw [View.set_slice_whole, Rect.mem_set_unit]
  exact Iff.rfl

/-- The 20 blocks tile the output: row r lies in the block of point r / 5000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, e2, e3, e4, e5, e6, e7⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e6, ht]; omega
  | ⟨1, _⟩ => show win2_3.index t (1 : Fin 2) * 64 ≤ (i 1).val ∧ (i 1).val < win2_3.index t (1 : Fin 2) * 64 + 64; rw [e7]; omega

/-- THE OUTPUT ARRAY after the region: the fused layer of the arrays the region found. -/
theorem final (c : Dev nD) : (dat2 V c).arrAt 3 cfg2.N = G V c :=
  (dat2 V c).arrAt_eq_of_cover 3 (G V c) (fun t _ => flushed_eq V c t) (cover)

end Cert.KernelIdeal.Region2

end
-- ==== Proof.Region3.lean ====
/-
  Region 3 of the kernel program as ONE function of the arrays it finds.

  The last kernel adds the bias row to every row of the [100000, 64] array, 5000 rows per grid point: point t reads rows
  5000·t … 5000·t + 4999 of the input and the whole bias row, and writes the same rows of the output. Each output
  entry depends on the one input entry at its own index, so what point t writes back is block t of `biased` applied
  to the whole input array; the 20 blocks tile the output, which therefore ends holding `biased` of the two input
  arrays as the region found them.
-/
import proofs.«182082_j80616536146118_1_alg».proof.Proof.Gen.KernelIdeal.Frame
import proofs.«182082_j80616536146118_1_alg».proof.Proof.BiasFirst
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.BiasFirst

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the input's and the output's blocks move down the rows with the
    point, the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's stored value is the bias row added to every row of the loaded block. -/
theorem pay_eq (x0 : Vec Ideal S5000x64 .f32) (x1 : Vec Ideal S1x64 .f32) :
    k3_pay1 x0 x1 = biased x0 x1 := by
  unfold k3_pay1
  exact unit_biased x0 x1 _ _ _

/-- The whole-array function: the bias row added to every row of the input array, both as the region finds them. -/
abbrev G (c : Dev nD) : S100000x64.Idx → EReal :=
  biased (V c main_v75 : S100000x64.Idx → EReal) (V c main_v76 : S1x64.Idx → EReal)

/-- Row p' of point t's blocks is row 5000·t + p' of the arrays. -/
theorem row_lt (t : Fin cfg3.N) (p' : Fin 5000) : t.val * 5000 + p'.val < 100000 := by
  have ht := t.isLt
  have hN : cfg3.N = 20 := N_3
  have hp := p'.isLt
  omega

/-- WHAT POINT t WRITES BACK is block t of `G`. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  rw [pay_eq]
  obtain ⟨e0, e1, e2, e3, e4, e5⟩ := idx_facts t
  funext j
  rw [View.read_apply]
  refine biased_block (V c main_v75 : S100000x64.Idx → EReal) (V c main_v76 : S1x64.Idx → EReal) (iblk3 V c 1 t) (iblk3 V c 0 t)
    (fun y => ((cfg3.win 2).blk t).view.emb y) (fun p' => ⟨t.val * 5000 + p'.val, row_lt t p'⟩) ?_ ?_ ?_ j
  · intro p' q
    funext a; apply Fin.ext
    match a with
    | ⟨0, _⟩ => show win3_2.index t (0 : Fin 2) * 5000 + 1 * p'.val = t.val * 5000 + p'.val; rw [e4]; omega
    | ⟨1, _⟩ => show win3_2.index t (1 : Fin 2) * 64 + 1 * q.val = q.val; rw [e5]; omega
  · intro p' q
    unfold iblk3
    rw [View.read_apply]
    show (V c main_v75 : S100000x64.Idx → EReal) (((cfg3.win 0).blk t).view.emb (ix2 p' q)) = _
    refine congrArg _ (funext fun a => Fin.ext ?_)
    match a with
    | ⟨0, _⟩ => show win3_0.index t (0 : Fin 2) * 5000 + 1 * p'.val = t.val * 5000 + p'.val; rw [e0]; omega
    | ⟨1, _⟩ => show win3_0.index t (1 : Fin 2) * 64 + 1 * q.val = q.val; rw [e1]; omega
  · intro q
    unfold iblk3
    rw [View.read_apply]
    show (V c main_v76 : S1x64.Idx → EReal) (((cfg3.win 1).blk t).view.emb (ix2 (0 : Fin 1) q)) = _
    refine congrArg _ (funext fun a => Fin.ext ?_)
    match a with
    | ⟨0, _⟩ => show win3_1.index t (0 : Fin 2) * 1 + 1 * 0 = 0; rw [e2]
    | ⟨1, _⟩ => show win3_1.index t (1 : Fin 2) * 64 + 1 * q.val = q.val; rw [e3]; omega

/-- An index of the output array is in point t's block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v77).slice (win3_2.rect t)).set ↔ _
  rw [View.set_slice_whole, Rect.mem_set_unit]
  exact Iff.rfl

/-- The 20 blocks tile the output: row r lies in the block of point r / 5000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e0, e1, e2, e3, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 64 ≤ (i 1).val ∧ (i 1).val < win3_2.index t (1 : Fin 2) * 64 + 64; rw [e5]; omega

/-- THE OUTPUT ARRAY after the region: the bias row added to every row of the array the region found. -/
theorem final (c : Dev nD) : (dat3 V c).arrAt 2 cfg3.N = G V c :=
  (dat3 V c).arrAt_eq_of_cover 2 (G V c) (fun t _ => flushed_eq V c t) (cover)

end Cert.KernelIdeal.Region3

end
-- ==== Proof.KernelValue.lean ====
/-
  The kernel program's result as one term of its arguments.

  The program's run passes ten boundaries: three stretches of host operations that make the edges' endpoints and weights
  and a zero bias row; then, three times, a fused kernel region followed by the host's aggregation over the graph; then
  the bias-add region. The contents at the last boundary of the result buffer are read back boundary by boundary:
  a region's output array is the fused layer of the arrays it found (the region modules), a stretch's result is its
  operations applied to what it found, and what a later stretch reads of the first stretches' results (the endpoints, the
  weights) and of the arguments is carried unchanged across every boundary in between, since no region and no later
  operation writes those buffers.
-/
import proofs.«182082_j80616536146118_1_alg».proof.Proof.Gen.KernelIdeal.Frame
import proofs.«182082_j80616536146118_1_alg».proof.Proof.Graph
import proofs.«182082_j80616536146118_1_alg».proof.Proof.Region0
import proofs.«182082_j80616536146118_1_alg».proof.Proof.Region1
import proofs.«182082_j80616536146118_1_alg».proof.Proof.Region2
import proofs.«182082_j80616536146118_1_alg».proof.Proof.Region3
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.Graph Cert.BiasFirst

/-! ## The first three stretches, each from ANY contents `V` (any float family) -/

section Stretches

variable {F : FTy → Type} [FloatOps F]
variable (V : Valuation τ sig (Elt F))

/-- The first stretch makes the endpoints, and from the in-degrees the two operands of the select that follows. -/
theorem stretch0 :
    StableHlo.after hostOps0 V (Proc.devRef .tc main_v3) = srcIdx (V (Proc.devRef .tc main_arg1))
    ∧ StableHlo.after hostOps0 V (Proc.devRef .tc main_v6) = dstIdx (V (Proc.devRef .tc main_arg1))
    ∧ StableHlo.after hostOps0 V (Proc.devRef .tc main_v12)
        = cmpf (F := F) .ogt (deg (V (Proc.devRef .tc main_arg1))) (broadcastInDim S100000 ![] bcast_S_S100000 (constant S_ .f32 0x00000000#32))
    ∧ StableHlo.after hostOps0 V (Proc.devRef .tc main_v13) = Host.rsqrt (deg (V (Proc.devRef .tc main_arg1)))
    ∧ StableHlo.after hostOps0 V (Proc.devRef .tc main_cst_2) = constant S_ .f32 0x00000000#32 := by
  refine ⟨?_, ?_, ?_, ?_, ?_⟩ <;>
  · dsimp only [hostOps0]
    after_results
    try rfl

set_option maxHeartbeats 2000000 in
/-- The second stretch (the inlined `where`) selects the reciprocal square root where the degree is positive. -/
theorem stretch0_1 (me : (⟨S2x1600000, .i32⟩ : BufTy).Contents (Elt F))
    (h12 : V (Proc.devRef .tc main_v12) = cmpf (F := F) .ogt (deg me) (broadcastInDim S100000 ![] bcast_S_S100000 (constant S_ .f32 0x00000000#32)))
    (h13 : V (Proc.devRef .tc main_v13) = Host.rsqrt (deg me))
    (hc : V (Proc.devRef .tc main_cst_2) = constant S_ .f32 0x00000000#32) :
    StableHlo.after hostOps0_1 V (Proc.devRef .tc main_v14) = dinv me := by
  dsimp only [hostOps0_1]
  after_results_simp
  simp only [TRef.ofBuf, TRef.toBuf, cast_eq]
  rw [h12, h13, hc]
  rfl

set_option maxHeartbeats 4000000 in
/-- The third stretch gathers the two factors of every edge's weight, and makes the zero bias row. -/
theorem stretch0_2 (me : (⟨S2x1600000, .i32⟩ : BufTy).Contents (Elt F))
    (h3 : V (Proc.devRef .tc main_v3) = srcIdx me) (h6 : V (Proc.devRef .tc main_v6) = dstIdx me)
    (h14 : V (Proc.devRef .tc main_v14) = dinv me) :
    StableHlo.after hostOps0_2 V (Proc.devRef .tc main_v29) = norm me
    ∧ StableHlo.after hostOps0_2 V (Proc.devRef .tc main_v31) = zeroRow := by
  constructor
  · dsimp only [hostOps0_2]
    after_results_simp
    rw [h3, h6, h14]
    rfl
  · dsimp only [hostOps0_2]
    after_results_simp
    try rfl

set_option maxHeartbeats 2000000 in
/-- The second and third stretches write neither endpoint buffer. -/
theorem keep0_1 :
    StableHlo.after hostOps0_1 V (Proc.devRef .tc main_v3) = V (Proc.devRef .tc main_v3)
    ∧ StableHlo.after hostOps0_1 V (Proc.devRef .tc main_v6) = V (Proc.devRef .tc main_v6) := by
  constructor <;>
  · dsimp only [hostOps0_1]
    after_results_simp

theorem keep0_2 :
    StableHlo.after hostOps0_2 V (Proc.devRef .tc main_v3) = V (Proc.devRef .tc main_v3)
    ∧ StableHlo.after hostOps0_2 V (Proc.devRef .tc main_v6) = V (Proc.devRef .tc main_v6) := by
  constructor <;>
  · dsimp only [hostOps0_2]
    after_results
    try rfl

end Stretches

/-! ## What is carried across the boundaries (any float family) -/

section Carried

variable {F : FTy → Type} [FloatOps F]
variable (m : (ℓ : Loc nD τ sig) → Buf (Elt F) ℓ) (ρ : Dev nD → PrngReg)

/-- At a boundary's contents `W`: the endpoints and the weights are the graph's, the later layers' arguments as launched. -/
structure Carried (c : Dev nD) (W : Valuation τ sig (Elt F)) : Prop where
  src : W (Proc.devRef .tc main_v3) = srcIdx (m ((c : Thread nD τ).loc main_arg1))
  dst : W (Proc.devRef .tc main_v6) = dstIdx (m ((c : Thread nD τ).loc main_arg1))
  nrm : W (Proc.devRef .tc main_v29) = norm (m ((c : Thread nD τ).loc main_arg1))
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)

/-- What region 0 reads: the first argument, the zero bias row, the first matrix. -/
theorem entry3 (c : Dev nD) :
    W3 m ρ c (Proc.devRef .tc main_arg0) = m ((c : Thread nD τ).loc main_arg0)
    ∧ W3 m ρ c (Proc.devRef .tc main_v31) = zeroRow
    ∧ W3 m ρ c (Proc.devRef .tc main_arg2) = m ((c : Thread nD τ).loc main_arg2) := by
  refine ⟨?_, ?_, ?_⟩ <;>
  · dsimp only [W3, W2, W1, W0, hostOps0, hostOps0_1, hostOps0_2]
    after_results
    try rfl

set_option maxHeartbeats 4000000 in
/-- Region 0's entry: the endpoints from the first stretch, the weights from the three together, the arguments untouched. -/
theorem carried3 (c : Dev nD) : Carried m c (W3 m ρ c) := by
  obtain ⟨s3, s6, s12, s13, sc⟩ := stretch0 (W0 m ρ c)
  obtain ⟨k13, k16⟩ := keep0_1 (W1 m ρ c)
  obtain ⟨k23, k26⟩ := keep0_2 (W2 m ρ c)
  have h14 : W2 m ρ c (Proc.devRef .tc main_v14) = dinv (m ((c : Thread nD τ).loc main_arg1)) :=
    stretch0_1 (W1 m ρ c) (m ((c : Thread nD τ).loc main_arg1)) s12 s13 sc
  have h3 : W2 m ρ c (Proc.devRef .tc main_v3) = srcIdx (m ((c : Thread nD τ).loc main_arg1)) := k13.trans s3
  have h6 : W2 m ρ c (Proc.devRef .tc main_v6) = dstIdx (m ((c : Thread nD τ).loc main_arg1)) := k16.trans s6
  obtain ⟨s29, -⟩ := stretch0_2 (W2 m ρ c) (m ((c : Thread nD τ).loc main_arg1)) h3 h6 h14
  refine ⟨k23.trans h3, k26.trans h6, s29, ?_, ?_, ?_, ?_, ?_⟩ <;>
  · dsimp only [W3, W2, W1, W0, hostOps0, hostOps0_1, hostOps0_2]
    after_results_simp
    try rfl

/-- Across region 0: it writes none of these buffers. -/
theorem carried4 (c : Dev nD) : Carried m c (W4 m ρ c) := by
  have h := carried3 m ρ c
  exact ⟨(W4_of_ne m ρ c main_v3 (by decide)).trans h.src, (W4_of_ne m ρ c main_v6 (by decide)).trans h.dst,
    (W4_of_ne m ρ c main_v29 (by decide)).trans h.nrm, (W4_of_ne m ρ c main_arg3 (by decide)).trans h.a3,
    (W4_of_ne m ρ c main_arg4 (by decide)).trans h.a4, (W4_of_ne m ρ c main_arg5 (by decide)).trans h.a5,
    (W4_of_ne m ρ c main_arg6 (by decide)).trans h.a6, (W4_of_ne m ρ c main_arg7 (by decide)).trans h.a7⟩

/-- Across the stretch `hostOps1`: none of its operations writes these buffers. -/
theorem carried5 (c : Dev nD) : Carried m c (W5 m ρ c) := by
  have h := carried4 m ρ c
  refine ⟨Eq.trans ?_ h.src, Eq.trans ?_ h.dst, Eq.trans ?_ h.nrm, Eq.trans ?_ h.a3, Eq.trans ?_ h.a4, Eq.trans ?_ h.a5,
    Eq.trans ?_ h.a6, Eq.trans ?_ h.a7⟩ <;>
  · show StableHlo.after hostOps1 (W4 m ρ c) _ = _
    dsimp only [hostOps1]
    after_results
    try rfl

/-- Across region 1: it writes none of these buffers. -/
theorem carried6 (c : Dev nD) : Carried m c (W6 m ρ c) := by
  have h := carried5 m ρ c
  exact ⟨(W6_of_ne m ρ c main_v3 (by decide)).trans h.src, (W6_of_ne m ρ c main_v6 (by decide)).trans h.dst,
    (W6_of_ne m ρ c main_v29 (by decide)).trans h.nrm, (W6_of_ne m ρ c main_arg3 (by decide)).trans h.a3,
    ((W6_arr m ρ c 2).trans (((dat1 (V5 m ρ) c).arrAt_in 2 rfl _).trans (A_eq1 (V5 m ρ) c 2))).trans h.a4, (W6_of_ne m ρ c main_arg5 (by decide)).trans h.a5,
    (W6_of_ne m ρ c main_arg6 (by decide)).trans h.a6, (W6_of_ne m ρ c main_arg7 (by decide)).trans h.a7⟩

/-- Across the stretch `hostOps2`: none of its operations writes these buffers. -/
theorem carried7 (c : Dev nD) : Carried m c (W7 m ρ c) := by
  have h := carried6 m ρ c
  refine ⟨Eq.trans ?_ h.src, Eq.trans ?_ h.dst, Eq.trans ?_ h.nrm, Eq.trans ?_ h.a3, Eq.trans ?_ h.a4, Eq.trans ?_ h.a5,
    Eq.trans ?_ h.a6, Eq.trans ?_ h.a7⟩ <;>
  · show StableHlo.after hostOps2 (W6 m ρ c) _ = _
    dsimp only [hostOps2]
    after_results
    try rfl

/-- Across region 2: it writes none of these buffers. -/
theorem carried8 (c : Dev nD) : Carried m c (W8 m ρ c) := by
  have h := carried7 m ρ c
  exact ⟨(W8_of_ne m ρ c main_v3 (by decide)).trans h.src, (W8_of_ne m ρ c main_v6 (by decide)).trans h.dst,
    (W8_of_ne m ρ c main_v29 (by decide)).trans h.nrm, (W8_of_ne m ρ c main_arg3 (by decide)).trans h.a3,
    (W8_of_ne m ρ c main_arg4 (by decide)).trans h.a4, (W8_of_ne m ρ c main_arg5 (by decide)).trans h.a5,
    ((W8_arr m ρ c 2).trans (((dat2 (V7 m ρ) c).arrAt_in 2 rfl _).trans (A_eq2 (V7 m ρ) c 2))).trans h.a6, (W8_of_ne m ρ c main_arg7 (by decide)).trans h.a7⟩

set_option maxHeartbeats 4000000 in
/-- After `hostOps1`: the aggregate of region 0's output, and the next bias as a row. -/
theorem agg5 (c : Dev nD) :
    W5 m ρ c (Proc.devRef .tc main_v45) = agg (m ((c : Thread nD τ).loc main_arg1)) (W4 m ρ c (Proc.devRef .tc main_v32))
    ∧ W5 m ρ c (Proc.devRef .tc main_v46) = row (m ((c : Thread nD τ).loc main_arg3)) := by
  have h := carried4 m ρ c
  constructor
  · show StableHlo.after hostOps1 (W4 m ρ c) _ = _
    dsimp only [hostOps1]
    after_results_simp
    rw [h.src, h.dst, h.nrm]
    rfl
  · show StableHlo.after hostOps1 (W4 m ρ c) _ = _
    dsimp only [hostOps1]
    after_results_simp
    rw [h.a3]
    rfl

set_option maxHeartbeats 4000000 in
/-- After `hostOps2`: the aggregate of region 1's output, and the next bias as a row. -/
theorem agg7 (c : Dev nD) :
    W7 m ρ c (Proc.devRef .tc main_v60) = agg (m ((c : Thread nD τ).loc main_arg1)) (W6 m ρ c (Proc.devRef .tc main_v47))
    ∧ W7 m ρ c (Proc.devRef .tc main_v61) = row (m ((c : Thread nD τ).loc main_arg5)) := by
  have h := carried6 m ρ c
  constructor
  · show StableHlo.after hostOps2 (W6 m ρ c) _ = _
    dsimp only [hostOps2]
    after_results_simp
    rw [h.src, h.dst, h.nrm]
    rfl
  · show StableHlo.after hostOps2 (W6 m ρ c) _ = _
    dsimp only [hostOps2]
    after_results_simp
    rw [h.a5]
    rfl

set_option maxHeartbeats 4000000 in
/-- After `hostOps3`: the aggregate of region 2's output, and the next bias as a row. -/
theorem agg9 (c : Dev nD) :
    W9 m ρ c (Proc.devRef .tc main_v75) = agg (m ((c : Thread nD τ).loc main_arg1)) (W8 m ρ c (Proc.devRef .tc main_v62))
    ∧ W9 m ρ c (Proc.devRef .tc main_v76) = row (m ((c : Thread nD τ).loc main_arg7)) := by
  have h := carried8 m ρ c
  constructor
  · show StableHlo.after hostOps3 (W8 m ρ c) _ = _
    dsimp only [hostOps3]
    after_results_simp
    rw [h.src, h.dst, h.nrm]
    rfl
  · show StableHlo.after hostOps3 (W8 m ρ c) _ = _
    dsimp only [hostOps3]
    after_results_simp
    rw [h.a7]
    rfl

end Carried

/-! ## The regions' outputs and the result (on the extended reals) -/

section Values

variable (m : (ℓ : Loc nD τ sig) → Buf (Elt Ideal) ℓ) (ρ : Dev nD → PrngReg)

/-- Region 0 leaves the first layer (identity activation, zero bias row) of the first argument. -/
theorem out4 (c : Dev nD) : W4 m ρ c (Proc.devRef .tc main_v32)
    = layer id (m ((c : Thread nD τ).loc main_arg0) : S100000x64.Idx → EReal) (zeroRow (F := Ideal) : S1x64.Idx → EReal)
        (m ((c : Thread nD τ).loc main_arg2) : S64x64.Idx → EReal) := by
  obtain ⟨e0, e1, e2⟩ := entry3 m ρ c
  refine (W4_arr m ρ c 3).trans ((Region0.final (V3 m ρ) c).trans ?_)
  show layer id (W3 m ρ c (Proc.devRef .tc main_arg0) : S100000x64.Idx → EReal) (W3 m ρ c (Proc.devRef .tc main_v31) : S1x64.Idx → EReal)
    (W3 m ρ c (Proc.devRef .tc main_arg2) : S64x64.Idx → EReal) = _
  rw [e0, e1, e2]

/-- Region 1 leaves the rectified layer of what the stretch before it left. -/
theorem out6 (c : Dev nD) : W6 m ρ c (Proc.devRef .tc main_v47)
    = layer relu (W5 m ρ c (Proc.devRef .tc main_v45) : S100000x64.Idx → EReal) (W5 m ρ c (Proc.devRef .tc main_v46) : S1x64.Idx → EReal)
        (m ((c : Thread nD τ).loc main_arg4) : S64x64.Idx → EReal) := by
  refine (W6_arr m ρ c 3).trans ((Region1.final (V5 m ρ) c).trans ?_)
  show layer relu (W5 m ρ c (Proc.devRef .tc main_v45) : S100000x64.Idx → EReal) (W5 m ρ c (Proc.devRef .tc main_v46) : S1x64.Idx → EReal)
    (W5 m ρ c (Proc.devRef .tc main_arg4) : S64x64.Idx → EReal) = _
  rw [(carried5 m ρ c).a4]

/-- Region 2 likewise. -/
theorem out8 (c : Dev nD) : W8 m ρ c (Proc.devRef .tc main_v62)
    = layer relu (W7 m ρ c (Proc.devRef .tc main_v60) : S100000x64.Idx → EReal) (W7 m ρ c (Proc.devRef .tc main_v61) : S1x64.Idx → EReal)
        (m ((c : Thread nD τ).loc main_arg6) : S64x64.Idx → EReal) := by
  refine (W8_arr m ρ c 3).trans ((Region2.final (V7 m ρ) c).trans ?_)
  show layer relu (W7 m ρ c (Proc.devRef .tc main_v60) : S100000x64.Idx → EReal) (W7 m ρ c (Proc.devRef .tc main_v61) : S1x64.Idx → EReal)
    (W7 m ρ c (Proc.devRef .tc main_arg6) : S64x64.Idx → EReal) = _
  rw [(carried7 m ρ c).a6]

/-- Region 3 leaves the last aggregate with the last bias row added. -/
theorem out10 (c : Dev nD) : W10 m ρ c (Proc.devRef .tc main_v77)
    = biased (W9 m ρ c (Proc.devRef .tc main_v75) : S100000x64.Idx → EReal) (W9 m ρ c (Proc.devRef .tc main_v76) : S1x64.Idx → EReal) :=
  (W10_arr m ρ c 2).trans (Region3.final (V9 m ρ) c)

/-- The network as the kernel program computes it: three fused layers, each aggregated over the graph, the last bias added. -/
def network (me : (⟨S2x1600000, .i32⟩ : BufTy).Contents (Elt Ideal)) (x : S100000x64.Idx → EReal)
    (w1 : S64x64.Idx → EReal) (b1 : S64.Idx → EReal) (w2 : S64x64.Idx → EReal) (b2 : S64.Idx → EReal)
    (w3 : S64x64.Idx → EReal) (b3 : S64.Idx → EReal) : S100000x64.Idx → EReal :=
  biased (agg me (layer relu (agg me (layer relu (agg me (layer id x (zeroRow (F := Ideal) : S1x64.Idx → EReal) w1)) (row (F := Ideal) b1) w2)) (row (F := Ideal) b2) w3)) (row (F := Ideal) b3)

/-- THE RESULT BUFFER at the last boundary is the network of the arguments as launched. -/
theorem result (c : Dev nD) : W10 m ρ c (Proc.devRef .tc main_v77)
    = network (m ((c : Thread nD τ).loc main_arg1)) (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [out10, (agg9 m ρ c).1, (agg9 m ρ c).2, out8, (agg7 m ρ c).1, (agg7 m ρ c).2, out6, (agg5 m ρ c).1, (agg5 m ρ c).2, out4]
  rfl

end Values

end Cert.KernelIdeal.Chain

end
-- ==== Proof.RefTerm.lean ====
/-
  The reference's result as one term of its argument arrays, over the graph's functions.

  The reference computes, three times, a dense layer (a plain matrix product), the aggregation over the graph, and a
  bias addition, with a rectifier after the first two. Its run's result term is that composition with every host
  operation spelt out; here it is folded back into the graph's named functions (`agg`, over the same endpoints and
  weights as the kernel program's) and three short host spellings (`dense`, `bias2d`, `reluH`): the two sides are the
  same term, for any float family.
-/
import proofs.«182082_j80616536146118_1_alg».proof.Proof.RefRun
import proofs.«182082_j80616536146118_1_alg».proof.Proof.Graph

set_option maxRecDepth 16384

noncomputable section

namespace Cert.ReferenceIdeal.Term

open Cert.ReferenceIdeal Cert.ReferenceIdeal.Facts₀ Cert.ReferenceIdeal.Facts Idealize.ShloMosaic Idealize.ShloMosaic.TcCoe
open Cert.KernelIdeal.Graph (agg)

variable {F : FTy → Type} [FloatOps F]

/-- The host's dense layer: a plain [100000, 64] by [64, 64] product. -/
def dense (X : (⟨S100000x64, .f32⟩ : BufTy).Contents (Elt F)) (W : (⟨S64x64, .f32⟩ : BufTy).Contents (Elt F)) :
    (⟨S100000x64, .f32⟩ : BufTy).Contents (Elt F) :=
  Host.dotGeneral dot_S100000x64_S64x64_S100000x64_1_0_0_1_n_n none X W

/-- A bias vector broadcast to one row and then down the 100000 rows. -/
def bias2d (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- The host's rectifier: the maximum with a broadcast zero constant. -/
def reluH (Y : (⟨S100000x64, .f32⟩ : BufTy).Contents (Elt F)) : (⟨S100000x64, .f32⟩ : BufTy).Contents (Elt F) :=
  maximumf Y (broadcastInDim S100000x64 ![] bcast_S_S100000x64 (constant S_ .f32 0x00000000#32))

/-- The network as the reference computes it. -/
def hostNetwork (me : (⟨S2x1600000, .i32⟩ : BufTy).Contents (Elt F)) (x : (⟨S100000x64, .f32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (w3 : (⟨S64x64, .f32⟩ : BufTy).Contents (Elt F)) (b3 : (⟨S64, .f32⟩ : BufTy).Contents (Elt F)) :
    (⟨S100000x64, .f32⟩ : BufTy).Contents (Elt F) :=
  addf (agg me (dense (reluH (addf (agg me (dense (reluH (addf (agg me (dense x w1)) (bias2d b1))) w2)) (bias2d b2))) w3)) (bias2d b3)

/-- The reference run's result term IS `hostNetwork` of the arguments as launched: the same operations, folded. -/
theorem res_eq (m : (ℓ : Loc nD τ sig) → Buf (Elt F) ℓ) (c : Dev nD) :
    Cert.ReferenceIdeal.ValueP.res_main_v82 m c
      = hostNetwork (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v82
  rfl

end Cert.ReferenceIdeal.Term

end
-- ==== Proof.Bridge.lean ====
/-
  The law that joins the two programs' networks.

  The reference adds each layer's bias after the aggregation and applies the rectifier before the next layer's product;
  the kernel program fuses that bias addition and rectifier into the NEXT layer's kernel, and feeds its first kernel a
  zero bias row. On the extended reals the two are the same function of the arguments, layer by layer:
  x · W = (x + 0) · W since x + 0 = x for every extended real, the infinities included;
  relu (A + b) · W is the fused layer of A with the bias row b; and the last bias addition is the last kernel's.
  No cancellation and no distributivity is used, so the inputs' finiteness plays no part.
-/
import proofs.«182082_j80616536146118_1_alg».proof.Proof.RefTerm
import proofs.«182082_j80616536146118_1_alg».proof.Proof.KernelValue
import proofs.«182082_j80616536146118_1_alg».proof.Proof.BiasFirst

noncomputable section

namespace Cert.Bridge

open Idealize.ShloMosaic Cert.BiasFirst Cert.KernelIdeal.Graph Cert.ReferenceIdeal.Term Cert.KernelIdeal.Chain

/-- The first layer: a plain product is the fused layer with the identity activation over the zero bias row. -/
theorem dense_eq (x : FVec Ideal Cert.ReferenceIdeal.S100000x64 .f32)
    (w : FVec Ideal Cert.ReferenceIdeal.S64x64 .f32) :
    dense (F := Ideal) x w = layer id x (zeroRow (F := Ideal)) w :=
  host_layer_id (M := 100000) (K := 64) (N := 64) x w (zeroRow (F := Ideal)) (fun k => zero_row Cert.KernelIdeal.Facts₀.bcast_S_S64 Cert.KernelIdeal.Facts₀.shapeCasts_S64_S1x64 k) none

/-- A later layer: bias, rectifier and product are the fused layer with the rectifier over the bias as a row. -/
theorem dense_relu_eq (A : FVec Ideal Cert.ReferenceIdeal.S100000x64 .f32)
    (b : FVec Ideal Cert.ReferenceIdeal.S64 .f32)
    (w : FVec Ideal Cert.ReferenceIdeal.S64x64 .f32) :
    dense (F := Ideal) (reluH (F := Ideal) (addf (F := Ideal) A (bias2d (F := Ideal) b))) w = layer relu A (row (F := Ideal) b) w :=
  host_layer_relu (M := 100000) (K := 64) (N := 64) A b w _ _ _ _ none

/-- The last bias addition. -/
theorem bias_eq (A : FVec Ideal Cert.ReferenceIdeal.S100000x64 .f32)
    (b : FVec Ideal Cert.ReferenceIdeal.S64 .f32) :
    addf (F := Ideal) A (bias2d (F := Ideal) b) = biased A (row (F := Ideal) b) :=
  host_biased (M := 100000) (N := 64) A b _ _ _

/-- The reference's network is the kernel program's. -/
theorem network_eq (me : (⟨Cert.ReferenceIdeal.S2x1600000, .i32⟩ : BufTy).Contents (Elt Ideal))
    (x : FVec Ideal Cert.ReferenceIdeal.S100000x64 .f32)
    (w1 : FVec Ideal Cert.ReferenceIdeal.S64x64 .f32) (b1 : FVec Ideal Cert.ReferenceIdeal.S64 .f32)
    (w2 : FVec Ideal Cert.ReferenceIdeal.S64x64 .f32) (b2 : FVec Ideal Cert.ReferenceIdeal.S64 .f32)
    (w3 : FVec Ideal Cert.ReferenceIdeal.S64x64 .f32) (b3 : FVec Ideal Cert.ReferenceIdeal.S64 .f32) :
    hostNetwork (F := Ideal) me x w1 b1 w2 b2 w3 b3 = network me x w1 b1 w2 b2 w3 b3 := by
  unfold hostNetwork network
  rw [bias_eq, dense_relu_eq, dense_relu_eq, dense_eq]

end Cert.Bridge

end
-- ==== Proof.lean ====
/-
  The certificate of a three-layer graph convolution: fused Pallas layers against the jnp reference, over the reals.

  Both programs append self loops to the edge list, weigh every edge by the symmetric degree normalisation
  dinv[src] · dinv[dst], and apply three times: a dense 64×64 layer, the aggregation of the transformed rows over the
  graph, a bias. The reference rectifies after the first two layers. The kernel program moves each bias addition and
  rectifier into the NEXT layer's fused kernel (bias first, then the rectifier, then the product on the matrix unit),
  gives its first kernel a zero bias row, and ends with a bias-add kernel; the aggregation stays on the host, with the
  reference's own gather and scatter-add.

  On the extended reals the two are one function of the arguments (`Cert.Bridge.network_eq`): a change of float format
  is the identity, x + 0 = x at every extended real, and bias, rectifier and product compose the same either way. The
  graph operations are never opened: both sides apply the same function `agg` to equal arrays.

  The kernel program's frames are the generated ones; its result is read off the same launch with the result buffer
  named (`Cert.KernelIdeal.Named.run_named`), boundary by boundary (`Cert.KernelIdeal.Chain.result`), each region's
  output as the fused layer of the arrays it found (the region modules). The reference's frame and result come from
  its run read back (`Cert.ReferenceIdeal.ValueP.run`), its result term folded into the same named functions
  (`Cert.ReferenceIdeal.Term.res_eq`). The ideal pass rewrote nothing, so `preserves` has no conjunct.
-/
import proofs.«182082_j80616536146118_1_alg».proof.Defs
import proofs.«182082_j80616536146118_1_alg».proof.Proof.Gen.Kernel
import proofs.«182082_j80616536146118_1_alg».proof.Proof.Gen.Kernel.Skeleton
import proofs.«182082_j80616536146118_1_alg».proof.Proof.Gen.Kernel.Launch
import proofs.«182082_j80616536146118_1_alg».proof.Proof.Gen.Kernel.Points
import proofs.«182082_j80616536146118_1_alg».proof.Proof.Gen.Kernel.Frame
import proofs.«182082_j80616536146118_1_alg».proof.Proof.Gen.KernelIdeal
import proofs.«182082_j80616536146118_1_alg».proof.Proof.Gen.KernelIdeal.Skeleton
import proofs.«182082_j80616536146118_1_alg».proof.Proof.Gen.KernelIdeal.Launch
import proofs.«182082_j80616536146118_1_alg».proof.Proof.Gen.KernelIdeal.Points
import proofs.«182082_j80616536146118_1_alg».proof.Proof.Gen.KernelIdeal.Frame
import proofs.«182082_j80616536146118_1_alg».proof.Proof.Gen.ReferenceIdeal
import proofs.«182082_j80616536146118_1_alg».proof.Proof.Gen.Pre_finite_inputs
import proofs.«182082_j80616536146118_1_alg».proof.Proof.KernelRun
import proofs.«182082_j80616536146118_1_alg».proof.Proof.KernelValue
import proofs.«182082_j80616536146118_1_alg».proof.Proof.RefRun
import proofs.«182082_j80616536146118_1_alg».proof.Proof.RefTerm
import proofs.«182082_j80616536146118_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the network of the (equal) arguments in their result buffers. -/
theorem algebraic : Cert.algebraic_KernelIdeal_ReferenceIdeal := by
  intro m ρ m' ρ' _ hagree
  refine ⟨fun c => Cert.KernelIdeal.Chain.network
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.Term.res_eq, e0, e1, e2, e3, e4, e5, e6, e7]
    exact Cert.Bridge.network_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
